-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000x16 : Shape := ⟨2, ![3200000, 16]⟩
abbrev S3200000x1 : Shape := ⟨2, ![3200000, 1]⟩
abbrev S3200000x3 : Shape := ⟨2, ![3200000, 3]⟩
abbrev S3200000 : Shape := ⟨1, ![3200000]⟩
abbrev S_ : Shape := ⟨0, ![]⟩

class Facts : Prop where
  bcast_S_S3200000x16 : S_.BroadcastsInDim S3200000x16 (![] : Fin 0 → Fin S3200000x16.rank)
  reducesTo_S3200000x16_S_d0_1 : S3200000x16.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S3200000x3 : S_.BroadcastsInDim S3200000x3 (![] : Fin 0 → Fin S3200000x3.rank)
  reducesTo_S3200000x3_S_d0_1 : S3200000x3.ReducesTo [0, 1] S_

variable [Facts]

def fn {F : FTy → Type} [FloatOps F] (main_arg0 : FVec F S3200000x16 .f32) (main_arg1 : FVec F S3200000x1 .f32) (main_arg2 : FVec F S3200000x3 .f32) (main_arg3 : IVec S3200000 32) : IVec S_ 1 :=
  let main_v0 : FVec F S3200000x16 .f32 := Host.absf main_arg0
  let main_cst : FVec F S_ .f32 := constant S_ .f32 0x7F800000#32
  let main_v1 : FVec F S3200000x16 .f32 := broadcastInDim S3200000x16 ![] bcast_S_S3200000x16 main_cst
  let main_v2 : IVec S3200000x16 1 := cmpf .olt main_v0 main_v1
  let main_c : IVec S_ 1 := constantI S_ 1 1#1
  let main_v3 : IVec S_ 1 := (fun x v => Host.reduce IntOp.andi x v reducesTo_S3200000x16_S_d0_1 h_S_) main_v2 main_c
  let main_v4 : FVec F S3200000x1 .f32 := Host.absf main_arg1
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S3200000x3 .f32 := Host.absf main_arg2
  let main_cst_2 : FVec F S_ .f32 := constant S_ .f32 0x7F800000#32
  let main_v10 : FVec F S3200000x3 .f32 := broadcastInDim S3200000x3 ![] bcast_S_S3200000x3 main_cst_2
  let main_v11 : IVec S3200000x3 1 := cmpf .olt main_v9 main_v10
  let main_c_3 : IVec S_ 1 := constantI S_ 1 1#1
  let main_v12 : IVec S_ 1 := (fun x v => Host.reduce IntOp.andi x v reducesTo_S3200000x3_S_d0_1 h_S_) main_v11 main_c_3
  let main_v13 : IVec S_ 1 := andi main_v8 main_v12
  main_v13
-- ==== Kernel.lean ====
abbrev S3200000x16 : Shape := ⟨2, ![3200000, 16]⟩
abbrev S3200000x1 : Shape := ⟨2, ![3200000, 1]⟩
abbrev S3200000x3 : Shape := ⟨2, ![3200000, 3]⟩
abbrev S3200000 : Shape := ⟨1, ![3200000]⟩
abbrev S12800x16 : Shape := ⟨2, ![12800, 16]⟩
abbrev S12800x1 : Shape := ⟨2, ![12800, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S3200000x16, .f32⟩
  | .hbm, ⟨1, _⟩ => ⟨S3200000x1, .f32⟩
  | .hbm, ⟨2, _⟩ => ⟨S3200000x3, .f32⟩
  | .hbm, ⟨3, _⟩ => ⟨S3200000, .i32⟩
  | .hbm, ⟨4, _⟩ => ⟨S3200000x16, .f32⟩
  | .hbm, ⟨5, _⟩ => ⟨S_, .f32⟩
  | .hbm, ⟨6, _⟩ => ⟨S3200000x16, .f32⟩
  | .hbm, ⟨7, _⟩ => ⟨S3200000x1, .i32⟩
  | .hbm, ⟨8, _⟩ => ⟨S3200000x16, .f32⟩
  | .local _ .vmem, ⟨0, _⟩ => ⟨S12800x16, .f32⟩
  | .local _ .vmem, ⟨1, _⟩ => ⟨S12800x16, .f32⟩
  | .local _ .vmem, ⟨2, _⟩ => ⟨S12800x1, .f32⟩
  | .local _ .vmem, ⟨3, _⟩ => ⟨S12800x1, .f32⟩
  | .local _ .vmem, ⟨4, _⟩ => ⟨S12800x16, .f32⟩
  | .local _ .vmem, ⟨5, _⟩ => ⟨S12800x16, .f32⟩
  | _, _ => ⟨S3200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12800x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S12800x1_S12800x1_0_0 : ∀ a, (![0, 0] : Fin 2 → Nat) a + S12800x1.size a ≤ S12800x1.size a
  h_S12800x1 : 0 < S12800x1.numel
  inb_S12800x16_S12800x16_0_0 : ∀ a, (![0, 0] : Fin 2 → Nat) a + S12800x16.size a ≤ S12800x16.size a
  h_S12800x16 : 0 < S12800x16.numel
  broadcasts_S12800x1_S12800x16 : S12800x1.Broadcasts S12800x16
  bcast_S_S3200000x16 : S_.BroadcastsInDim S3200000x16 (![] : Fin 0 → Fin S3200000x16.rank)
  bcast_S3200000_S3200000x1_0 : S3200000.BroadcastsInDim S3200000x1 (![0] : Fin 1 → Fin S3200000x1.rank)
  scatter_S3200000x16_S3200000x1_S3200000x16_1_0_0_1_wf : ScatterDims.WF S3200000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x16.size a ≤ S3200000x16.size a
  hwx0_0 : ∀ i : grid0.Coords, EltTy.bits .f32 = 32 ∨ (Rect.block (s := S3200000x16) S12800x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x1.size a ≤ S3200000x1.size a
  hwx0_1 : ∀ i : grid0.Coords, EltTy.bits .f32 = 32 ∨ (Rect.block (s := S3200000x1) S12800x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12800x16.size a ≤ S3200000x16.size a
  hwx0_2 : ∀ i : grid0.Coords, EltTy.bits .f32 = 32 ∨ (Rect.block (s := S3200000x16) S12800x16.size (cc0_transform_2 i) (hinb0_2 i)).WholeWords (EltTy.packing .f32)

variable [Facts₀]

def scatter_S3200000x16_S3200000x1_S3200000x16_1_0_0_1 : ScatterDims S3200000x16 S3200000x1 S3200000x16 where
  updateWindowDims := [1]
  insertedWindowDims := [0]
  scatterDimsToOperandDims := [0]
  indexVectorDim := 1
  wf := scatter_S3200000x16_S3200000x1_S3200000x16_1_0_0_1_wf

abbrev win0_0 : Pipeline.Window sig grid0 :=
  Pipeline.Window.ofSpec (Memref.whole main_arg0) S12800x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S12800x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S12800x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3200000x16 : Shape := ⟨2, ![3200000, 16]⟩
abbrev S3200000x1 : Shape := ⟨2, ![3200000, 1]⟩
abbrev S3200000x3 : Shape := ⟨2, ![3200000, 3]⟩
abbrev S3200000 : Shape := ⟨1, ![3200000]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S3200000x16, .f32⟩
  | .hbm, ⟨1, _⟩ => ⟨S3200000x1, .f32⟩
  | .hbm, ⟨2, _⟩ => ⟨S3200000x3, .f32⟩
  | .hbm, ⟨3, _⟩ => ⟨S3200000, .i32⟩
  | .hbm, ⟨4, _⟩ => ⟨S_, .f32⟩
  | .hbm, ⟨5, _⟩ => ⟨S3200000x1, .f32⟩
  | .hbm, ⟨6, _⟩ => ⟨S3200000x1, .f32⟩
  | .hbm, ⟨7, _⟩ => ⟨S_, .f32⟩
  | .hbm, ⟨8, _⟩ => ⟨S3200000x1, .f32⟩
  | .hbm, ⟨9, _⟩ => ⟨S3200000x1, .f32⟩
  | .hbm, ⟨10, _⟩ => ⟨S3200000x1, .f32⟩
  | .hbm, ⟨11, _⟩ => ⟨S_, .f32⟩
  | .hbm, ⟨12, _⟩ => ⟨S3200000x1, .f32⟩
  | .hbm, ⟨13, _⟩ => ⟨S3200000x1, .f32⟩
  | .hbm, ⟨14, _⟩ => ⟨S_, .f32⟩
  | .hbm, ⟨15, _⟩ => ⟨S3200000x1, .f32⟩
  | .hbm, ⟨16, _⟩ => ⟨S3200000x1, .f32⟩
  | .hbm, ⟨17, _⟩ => ⟨S_, .f32⟩
  | .hbm, ⟨18, _⟩ => ⟨S3200000x1, .f32⟩
  | .hbm, ⟨19, _⟩ => ⟨S3200000x1, .i1⟩
  | .hbm, ⟨20, _⟩ => ⟨S_, .f32⟩
  | .hbm, ⟨21, _⟩ => ⟨S_, .f32⟩
  | .hbm, ⟨22, _⟩ => ⟨S3200000x1, .f32⟩
  | .hbm, ⟨23, _⟩ => ⟨S3200000x1, .f32⟩
  | .hbm, ⟨24, _⟩ => ⟨S3200000x16, .f32⟩
  | .hbm, ⟨25, _⟩ => ⟨S3200000x16, .f32⟩
  | .hbm, ⟨26, _⟩ => ⟨S_, .f32⟩
  | .hbm, ⟨27, _⟩ => ⟨S3200000x16, .f32⟩
  | .hbm, ⟨28, _⟩ => ⟨S3200000x1, .i32⟩
  | .hbm, ⟨29, _⟩ => ⟨S3200000x16, .f32⟩
  | .hbm, ⟨30, _⟩ => ⟨S_, .f32⟩
  | .hbm, ⟨31, _⟩ => ⟨S3200000x16, .f32⟩
  | .hbm, ⟨32, _⟩ => ⟨S3200000x16, .f32⟩
  | _, _ => ⟨S3200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  bcast_S_S3200000x1 : S_.BroadcastsInDim S3200000x1 (![] : Fin 0 → Fin S3200000x1.rank)
  bcast_S3200000x1_S3200000x16_0_1 : S3200000x1.BroadcastsInDim S3200000x16 (![0, 1] : Fin 2 → Fin S3200000x16.rank)
  bcast_S_S3200000x16 : S_.BroadcastsInDim S3200000x16 (![] : Fin 0 → Fin S3200000x16.rank)
  bcast_S3200000_S3200000x1_0 : S3200000.BroadcastsInDim S3200000x1 (![0] : Fin 1 → Fin S3200000x1.rank)
  scatter_S3200000x16_S3200000x1_S3200000x16_1_0_0_1_wf : ScatterDims.WF S3200000x16 S3200000x1 S3200000x16 [1] [0] [0] 1

variable [Facts₀]

def scatter_S3200000x16_S3200000x1_S3200000x16_1_0_0_1 : ScatterDims S3200000x16 S3200000x1 S3200000x16 where
  updateWindowDims := [1]
  insertedWindowDims := [0]
  scatterDimsToOperandDims := [0]
  indexVectorDim := 1
  wf := scatter_S3200000x16_S3200000x1_S3200000x16_1_0_0_1_wf

class Facts : Prop extends Facts₀ where

variable [Facts]
-- ==== Proof.CutoffLaw.lean ====
/-
  The mathematics shared by the two programs, with no program in sight.

  Each edge e carries a feature row x e and a length r e. Its weight is the cosine cutoff
      cutoff r = if r < 5 then ½ · (cos (π̃ · r / 5) + 1) else 0
  (π̃ the f32 word nearest π, the same word on both sides, never evaluated), and node n receives the sum of the
  weighted rows of the edges whose receiver is n, scaled by 1/32. One program scales every weighted row before the
  sum, the other scales the sum. On the extended reals a product with a factor k, 0 ≤ k < ⊤, distributes over ANY
  finite sum (no term has to be finite: k · ⊤ = ⊤, k · ⊥ = ⊥ and ⊤ + ⊥ = ⊥ on both sides), so the two agree:
      0 + ∑_{e ↦ n} (x e · (cutoff (r e) · k)) = (0 + ∑_{e ↦ n} x e · cutoff (r e)) · k.
-/
import Idealize.ShloMosaic.Lib.ValueIdx
import Idealize.ShloMosaic.PureOps.Ideal.Laws
import Mathlib.Data.EReal.Operations

noncomputable section

open scoped BigOperators

namespace Cert.CutoffScatter

open Idealize.ShloMosaic Idealize.ShloMosaic.ValueIdx

/-- The edge arrays' shapes: 3 200 000 edges, 16 features a row, one length a row. -/
abbrev SFeat : Shape := ⟨2, ![3200000, 16]⟩
abbrev SLen : Shape := ⟨2, ![3200000, 1]⟩

/-- The cosine cutoff of one edge length, on the extended reals: ½ · (cos (π̃ · r / 5) + 1) below the radius 5,
    zero from the radius on. -/
def cutoff (r : EReal) : EReal :=
  Scalar.select (FloatOps.cmpf (F := Ideal) (φ := .f32) .olt r (Ideal.ofBits .f32 0x40A00000#32))
    (Ideal.ofBits .f32 0x3F000000#32
      * (Ideal.cos (Ideal.div (Ideal.ofBits .f32 0x40490FDB#32 * r) (Ideal.ofBits .f32 0x40A00000#32))
          + Ideal.ofBits .f32 0x3F800000#32))
    (Ideal.ofBits .f32 0x00000000#32)

/-- The neighbour-count normalisation, the f32 word of 1/32. -/
def scale : EReal := Ideal.ofBits .f32 0x3D000000#32

/-- That word denotes the real number 1/32. -/
theorem scale_eq : scale = ((1 / 32 : ℝ) : EReal) := by
  unfold scale
  simp [Ideal.ofBits, Ideal.ieee, -EReal.coe_mul]; norm_num

theorem scale_nonneg : 0 ≤ scale := by
  rw [scale_eq]; exact EReal.coe_nonneg.mpr (by norm_num)

theorem scale_ne_top : scale ≠ ⊤ := by
  rw [scale_eq]; exact EReal.coe_ne_top _

/-- The row of lengths an entry of the feature array belongs to: entry (e, j) reads length (e, 0). -/
abbrev lenIdx (i : SFeat.Idx) : SLen.Idx := ix2 (i 0) (0 : Fin 1)

/-- An edge's feature row times its cutoff weight: what is summed per receiver when the scale comes last. -/
def weighted (x : SFeat.Idx → EReal) (r : SLen.Idx → EReal) : SFeat.Idx → EReal :=
  fun i => x i * cutoff (r (lenIdx i))

/-- The same with the scale folded into the weight: what is summed per receiver when the scale comes first. -/
def weightedScaled (x : SFeat.Idx → EReal) (r : SLen.Idx → EReal) : SFeat.Idx → EReal :=
  fun i => x i * (cutoff (r (lenIdx i)) * scale)

/-- Folding the scale into the weight scales the weighted entry: associativity of the product. -/
theorem weightedScaled_eq (x : SFeat.Idx → EReal) (r : SLen.Idx → EReal) :
    weightedScaled x r = fun i => weighted x r i * scale :=
  funext fun i => (mul_assoc (x i) (cutoff (r (lenIdx i))) scale).symm

/-- A factor k with 0 ≤ k < ⊤ distributes over a finite sum of extended reals, finite terms or not. -/
theorem sum_mul_of_nonneg {ι : Type} (S : Finset ι) (f : ι → EReal) {k : EReal} (h0 : 0 ≤ k) (ht : k ≠ ⊤) :
    (∑ j ∈ S, f j) * k = ∑ j ∈ S, f j * k := by
  classical
  induction S using Finset.induction_on with
  | empty => simp
  | insert a S ha ih =>
    rw [Finset.sum_insert ha, Finset.sum_insert ha, EReal.right_distrib_of_nonneg_of_ne_top h0 ht, ih]

/-- An accumulating scatter from zeros is linear in such a factor: scattering the scaled updates is scaling the
    scattered updates, entry by entry. Each entry is zero plus the sum of the updates that land on it. -/
theorem scatterAdd_scaled {s si su : Shape} {w : ℕ} (d : ScatterDims s si su) (z : s.Idx → EReal) (idx : IVec si w)
    (u : su.Idx → EReal) {k : EReal} (hz : ∀ i, z i = 0) (h0 : 0 ≤ k) (ht : k ≠ ⊤) (i : s.Idx) :
    Ideal.hostScatterAdd d z idx (fun j => u j * k) i = Ideal.hostScatterAdd d z idx u i * k := by
  unfold Ideal.hostScatterAdd
  rw [hz i, zero_add, zero_add, sum_mul_of_nonneg _ _ h0 ht]

end Cert.CutoffScatter

end
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.KernelValue.lean ====
/-
  What the kernel program computes, read off its run.

  The one pipelined region walks 250 blocks of 12 800 edges. At each block it loads the features and the lengths,
  forms the cutoff weight of every length, scales it by 1/32, and stores features × scaled weight; the blocks tile
  the output, so after the region the output array is `weightedScaled` of the two argument arrays, entry by entry.
  The host lines after the region then sum those rows per receiver from zeros: the program's result.
-/
import proofs.«109956_j82712480186400_1_alg».proof.Proof.Gen.KernelIdeal.Frame
import proofs.«109956_j82712480186400_1_alg».proof.Proof.CutoffLaw
import proofs.«109956_j82712480186400_1_alg».proof.Proof.LibKeepdims
import Idealize.ShloMosaic.Lib.Pipeline.Value
import Idealize.ShloMosaic.Lib.StableHlo.Run

set_option maxRecDepth 16384

noncomputable section

namespace Cert.KernelIdeal.RegionValue

open Cert.KernelIdeal Cert.KernelIdeal.Gen Cert.CutoffScatter
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The body's one stored value at row p, feature q of a block: the feature times the scaled cutoff weight of the
    row's length. The column of weights is broadcast along the features, so entry (p, q) reads weight (p, 0). -/
theorem pay_apply (v0 : Vec Ideal S12800x1 .f32) (v16 : Vec Ideal S12800x16 .f32) (p : Fin 12800) (q : Fin 16) :
    k0_pay1 (F := Ideal) v0 v16 (ix2 p q) = v16 (ix2 p q) * (cutoff (v0 (ix2 p (0 : Fin 1))) * scale) := by
  unfold k0_pay1
  refine (congrArg (fun z => v16 (ix2 p q) * z) (Cert.LibKeepdims.bcast_col _ _ p q)).trans ?_
  rfl

/-- A block's stored value is the whole-array function `weightedScaled` read where the block sits in the array,
    once each loaded block is its own array read at the matching rows: features at the same entry, lengths at the
    entry's row. -/
theorem pay_block (X : SFeat.Idx → EReal) (R : SLen.Idx → EReal)
    (x0 : Vec Ideal S12800x16 .f32) (x1 : Vec Ideal S12800x1 .f32) (e : S12800x16.Idx → SFeat.Idx)
    (h0 : ∀ y, x0 y = X (e y))
    (h1 : ∀ y : S12800x16.Idx, x1 (ix2 (y 0) (0 : Fin 1)) = R (lenIdx (e y)))
    (y : S12800x16.Idx) :
    k0_pay1 (F := Ideal) x1 x0 y = weightedScaled X R (e y) := by
  obtain ⟨p, q, rfl⟩ : ∃ (p : Fin 12800) (q : Fin 16), y = ix2 p q := ⟨y 0, y 1, eq_ix2 y⟩
  have h1' : x1 (ix2 p (0 : Fin 1)) = R (lenIdx (e (ix2 p q))) := h1 (ix2 p q)
  rw [pay_apply, h0, h1']
  rfl

theorem hz : (![0, 0] : Fin 2 → Nat) = fun _ => 0 := funext fun a => by fin_cases a <;> rfl

/-- The three windows move together: at grid point t each sits at block row t of its array and block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What grid point t writes back is block t of `weightedScaled` of the two argument arrays. -/
theorem flushed_eq (c : Dev nD) (t : Fin cfg0.N) :
    (dats m 0 c).flushed 2 t
      = ((cfg0.win 2).blk t).view.read (Elt Ideal) (weightedScaled (V m c main_arg0) (V m c main_arg1)) := by
  show (cfg0.win 2).cut (grid0.coords t) ((dats m 0 c).after 2 t) = _
  rw [after0_2]
  unfold out0_2
  rw [View.canon_unit_zero hz]
  simp only [View.ld_unit_zero (S := S12800x1) hz, View.ld_unit_zero (S := S12800x16) hz]
  obtain ⟨e00, e01, e10, e11, e20, e21⟩ := idx_facts t
  funext j
  show k0_pay1 (F := Ideal) (iblk m c 1 t) (iblk m c 0 t) j
    = weightedScaled (V m c main_arg0) (V m c main_arg1) (((cfg0.win 2).blk t).view.emb j)
  refine pay_block (V m c main_arg0) (V m c main_arg1) (iblk m c 0 t) (iblk m c 1 t) (((cfg0.win 2).blk t).view.emb)
    (fun y => ?_) (fun y => ?_) j
  · show V m c main_arg0 (((cfg0.win 0).blk t).view.emb y) = V m c main_arg0 (((cfg0.win 2).blk t).view.emb y)
    refine congrArg (V m c main_arg0) (funext fun a => Fin.ext ?_)
    match a with
    | ⟨0, _⟩ =>
      show win0_0.index t (0 : Fin 2) * 12800 + 1 * (y 0).val = win0_2.index t (0 : Fin 2) * 12800 + 1 * (y 0).val
      omega
    | ⟨1, _⟩ =>
      show win0_0.index t (1 : Fin 2) * 16 + 1 * (y 1).val = win0_2.index t (1 : Fin 2) * 16 + 1 * (y 1).val
      omega
  · show V m c main_arg1 (((cfg0.win 1).blk t).view.emb (ix2 (y 0) (0 : Fin 1)))
      = V m c main_arg1 (lenIdx (((cfg0.win 2).blk t).view.emb y))
    refine congrArg (V m c main_arg1) (funext fun a => Fin.ext ?_)
    match a with
    | ⟨0, _⟩ =>
      show win0_1.index t (0 : Fin 2) * 12800 + 1 * (y 0).val = win0_2.index t (0 : Fin 2) * 12800 + 1 * (y 0).val
      omega
    | ⟨1, _⟩ =>
      show win0_1.index t (1 : Fin 2) * 1 + 1 * 0 = 0
      omega

/-- An entry of the output array lies in grid point t's block iff each coordinate lies in the block's range. -/
theorem mem_blk (t : Fin cfg0.N) (i : S3200000x16.Idx) :
    i ∈ ((cfg0.win 2).blk t).view.set ↔ ∀ a : Fin 2, win0_2.index t a * S12800x16.size a ≤ (i a).val
      ∧ (i a).val < win0_2.index t a * S12800x16.size a + S12800x16.size a := by
  show i ∈ ((View.whole main_v0).slice (win0_2.rect t)).set ↔ _
  rw [View.set_slice_whole, Rect.mem_set_unit]
  exact Iff.rfl

/-- The 250 blocks of 12 800 rows tile the 3 200 000 rows: row e lies in block e / 12 800. -/
theorem cover (i : S3200000x16.Idx) :
    ∃ t : Fin cfg0.N, (cfg0.win 2).flush t = true ∧ i ∈ ((cfg0.win 2).blk t).view.set := by
  have hi0 : (i 0).val < 3200000 := (i 0).isLt
  have hi1 : (i 1).val < 16 := (i 1).isLt
  have hN : cfg0.N = 250 := N_0
  have hlt : (i 0).val / 12800 < cfg0.N := by omega
  obtain ⟨-, -, -, -, e20, e21⟩ := idx_facts ⟨(i 0).val / 12800, hlt⟩
  have e20' : win0_2.index ⟨(i 0).val / 12800, hlt⟩ (0 : Fin 2) = (i 0).val / 12800 := e20
  refine ⟨⟨(i 0).val / 12800, hlt⟩, flush0_2 _, ?_⟩
  rw [mem_blk]
  intro a
  match a with
  | ⟨0, _⟩ =>
    show win0_2.index ⟨(i 0).val / 12800, hlt⟩ (0 : Fin 2) * 12800 ≤ (i 0).val
      ∧ (i 0).val < win0_2.index ⟨(i 0).val / 12800, hlt⟩ (0 : Fin 2) * 12800 + 12800
    omega
  | ⟨1, _⟩ =>
    show win0_2.index ⟨(i 0).val / 12800, hlt⟩ (1 : Fin 2) * 16 ≤ (i 1).val
      ∧ (i 1).val < win0_2.index ⟨(i 0).val / 12800, hlt⟩ (1 : Fin 2) * 16 + 16
    omega

/-- The region's output array after the run: every feature entry times the scaled cutoff weight of its row. -/
theorem region_array (c : Dev nD) :
    (dats m 0 c).arrAt 2 cfg0.N = weightedScaled (V m c main_arg0) (V m c main_arg1) :=
  (dats m 0 c).arrAt_eq_of_cover 2 (weightedScaled (V m c main_arg0) (V m c main_arg1))
    (fun t _ => flushed_eq m c t) cover

/-- The program's result: the scaled weighted rows summed per receiver, from zeros. -/
def result (c : Dev nD) : Buf (Elt Ideal) ((c.tc : Thread nD τ).loc main_v3) :=
  Host.scatterAdd (F := Ideal) scatter_S3200000x16_S3200000x1_S3200000x16_1_0_0_1
    (broadcastInDim S3200000x16 ![] bcast_S_S3200000x16 (constant S_ .f32 0x00000000#32))
    (broadcastInDim S3200000x1 ![0] bcast_S3200000_S3200000x1_0 (m ((c.tc : Thread nD τ).loc main_arg3)))
    (weightedScaled (m ((c.tc : Thread nD τ).loc main_arg0)) (m ((c.tc : Thread nD τ).loc main_arg1)))

/-- The host lines after the region read the region's output array and the receivers as launched, and leave
    `result` in the program's result buffer. -/
theorem tail_value (c : Dev nD) :
    Pipeline.afterTail₀ cfgs (dats m) 0 (V0 m) [hostOps1] c main_v3 = result m c := by
  unfold Pipeline.afterTail₀ result
  show StableHlo.after hostOps1 _ (Proc.devRef .tc main_v3) = _
  after_results
  have hv0 : Pipeline.withArrays (cfgs 0).spec c (V0 m c) (fun w => (dats m 0 c).arrAt w (cfgs 0).N)
      (Proc.devRef .tc main_v0)
      = weightedScaled (m ((c.tc : Thread nD τ).loc main_arg0)) (m ((c.tc : Thread nD τ).loc main_arg1)) :=
    (Pipeline.withArrays_arr spec0 launch0.win.arr_inj c _ _ 2).trans (region_array m c)
  have hv3 : Pipeline.withArrays (cfgs 0).spec c (V0 m c) (fun w => (dats m 0 c).arrAt w (cfgs 0).N)
      (Proc.devRef .tc main_arg3) = m ((c.tc : Thread nD τ).loc main_arg3) :=
    (Pipeline.withArrays_of_ne _ c (V0 m c) _ main_arg3
      (by exact (by decide : ∀ w, Pipeline.arrRef spec0 w ≠ main_arg3))).trans (V_main_arg3 m c)
  rw [hv0, hv3]

/-- Every weakly fair execution of the kernel program ends with `result` in its result buffer and its four
    argument arrays as launched. -/
theorem run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RegionValue

end
-- ==== Proof.RefValue.lean ====
/-
  The reference's result, read at an entry.

  The reference multiplies each feature row by its cutoff weight, sums the weighted rows per receiver from zeros,
  and scales the sums by 1/32 last. Entry by entry the weighted rows are `weighted`: the weight column, broadcast
  along the features, is read at the entry's own row, and the host's cosine and quotient are the extended reals' own.
-/
import proofs.«109956_j82712480186400_1_alg».proof.Proof.Gen.ReferenceIdeal.Run
import proofs.«109956_j82712480186400_1_alg».proof.Proof.Gen.ReferenceIdeal.Read
import proofs.«109956_j82712480186400_1_alg».proof.Proof.CutoffLaw

noncomputable section

namespace Cert.ReferenceIdeal.RefValue

open Cert.ReferenceIdeal Cert.ReferenceIdeal.Gen Cert.ReferenceIdeal.Read Cert.CutoffScatter
open Idealize.ShloMosaic Idealize.ShloMosaic.ValueIdx

/-- The weight column is broadcast along the features: entry (e, j) reads the weight of row e. -/
theorem row_idx (i : S3200000x16.Idx) : idx_main_v12 i = lenIdx i :=
  funext fun a => match a with | ⟨0, _⟩ => rfl | ⟨1, _⟩ => rfl

/-- The updates the reference scatters: each feature entry times the cutoff weight of its row's length. -/
theorem updates_eq (x0 : FVec Ideal S3200000x16 .f32) (x1 : FVec Ideal S3200000x1 .f32) :
    val_main_v13 (F := Ideal) x0 x1 = weighted x0 x1 := by
  funext i
  rw [val_main_v13_apply, val_main_v12_apply, val_main_v11_apply, val_main_v10_apply, val_main_v9_apply,
    val_main_cst_3_apply, val_main_v8_apply, val_main_v7_apply, val_main_cst_2_apply, val_main_v6_apply,
    val_main_v4_apply, val_main_v3_apply, val_main_v1_apply, val_main_v0_apply, val_main_cst_apply,
    val_main_v2_apply, val_main_cst_0_apply, val_main_v5_apply, val_main_cst_1_apply,
    val_main_call0_v1_apply, val_main_call0_v0_apply, val_main_cst_4_apply, row_idx]
  rfl

/-- The array the reference scatters into is zero everywhere. -/
theorem zeros_apply (i : S3200000x16.Idx) : val_main_v14 (F := Ideal) i = 0 := by
  rw [val_main_v14_apply, val_main_cst_5_apply, Ideal.ofBits_def]
  exact Ideal.ofBits_zero_f32

/-- The f32 word of 1/32 is the scale. -/
theorem scale_word : Ideal.ofBits .f32 0x3D000000#32 = scale := rfl

/-- The reference's result at an entry: the receiver's sum of weighted rows, from zero, times the scale. The
    host's accumulating scatter is, on the extended reals, the entry plus the exact sum of the updates landing on it. -/
theorem result_apply (x0 : FVec Ideal S3200000x16 .f32) (x1 : FVec Ideal S3200000x1 .f32) (x3 : IVec S3200000 32)
    (i : S3200000x16.Idx) :
    val_main_v18 (F := Ideal) x0 x1 x3 i
      = Ideal.hostScatterAdd scatter_S3200000x16_S3200000x1_S3200000x16_1_0_0_1 (val_main_v14 (F := Ideal))
          (val_main_v15 (F := Ideal) x3) (weighted x0 x1) i * scale := by
  rw [val_main_v18_apply, val_main_v17_apply, val_main_cst_6_apply, Ideal.mulf_def, Ideal.ofBits_def, scale_word,
    val_main_v16, Host.scatterAdd, Ideal.hostScatterAdd_def, updates_eq]

end Cert.ReferenceIdeal.RefValue

end
-- ==== Proof.Bridge.lean ====
/-
  The two programs' results are one function of the arguments.

  Both sum rows per receiver from zeros through the same scatter over the same receiver array. The kernel program
  sums features × (cutoff weight × 1/32); the reference sums features × cutoff weight and multiplies the sums by 1/32.
  A factor 1/32 (nonnegative, finite) distributes over every finite sum of extended reals, so the results agree at
  every entry, whatever the arguments hold.
-/
import proofs.«109956_j82712480186400_1_alg».proof.Proof.KernelValue
import proofs.«109956_j82712480186400_1_alg».proof.Proof.RefValue

noncomputable section

namespace Cert.Bridge

open Cert.CutoffScatter Idealize.ShloMosaic Idealize.ShloMosaic.ValueIdx

/-- The two programs print one scatter: the same window, inserted and scattered axes. -/
theorem dims_eq : Cert.KernelIdeal.scatter_S3200000x16_S3200000x1_S3200000x16_1_0_0_1
    = Cert.ReferenceIdeal.scatter_S3200000x16_S3200000x1_S3200000x16_1_0_0_1 := rfl

/-- Both scatter into the zero array. -/
theorem zeros_eq : broadcastInDim Cert.KernelIdeal.S3200000x16 ![] Cert.KernelIdeal.Facts₀.bcast_S_S3200000x16
      (constant (F := Ideal) Cert.KernelIdeal.S_ .f32 0x00000000#32)
    = Cert.ReferenceIdeal.Read.val_main_v14 (F := Ideal) := rfl

/-- Both read the receivers as one column of start indices. -/
theorem receivers_eq (x3 : IVec Cert.ReferenceIdeal.S3200000 32) :
    broadcastInDim Cert.KernelIdeal.S3200000x1 ![0] Cert.KernelIdeal.Facts₀.bcast_S3200000_S3200000x1_0 x3
    = Cert.ReferenceIdeal.Read.val_main_v15 (F := Ideal) x3 := rfl

/-- Scattering the scaled weighted rows is the reference's scatter of the weighted rows, scaled afterwards. -/
theorem result_eq (x0 : SFeat.Idx → EReal) (x1 : SLen.Idx → EReal) (x3 : IVec Cert.ReferenceIdeal.S3200000 32) :
    Host.scatterAdd (F := Ideal) Cert.KernelIdeal.scatter_S3200000x16_S3200000x1_S3200000x16_1_0_0_1
        (broadcastInDim Cert.KernelIdeal.S3200000x16 ![] Cert.KernelIdeal.Facts₀.bcast_S_S3200000x16
          (constant Cert.KernelIdeal.S_ .f32 0x00000000#32))
        (broadcastInDim Cert.KernelIdeal.S3200000x1 ![0] Cert.KernelIdeal.Facts₀.bcast_S3200000_S3200000x1_0 x3)
        (weightedScaled x0 x1)
      = Cert.ReferenceIdeal.Read.val_main_v18 (F := Ideal) x0 x1 x3 := by
  funext i
  rw [dims_eq, zeros_eq, receivers_eq, Host.scatterAdd, Ideal.hostScatterAdd_def,
    Cert.ReferenceIdeal.RefValue.result_apply, weightedScaled_eq]
  exact scatterAdd_scaled Cert.ReferenceIdeal.scatter_S3200000x16_S3200000x1_S3200000x16_1_0_0_1
    (Cert.ReferenceIdeal.Read.val_main_v14 (F := Ideal)) (Cert.ReferenceIdeal.Read.val_main_v15 (F := Ideal) x3)
    (weighted x0 x1) Cert.ReferenceIdeal.RefValue.zeros_apply scale_nonneg scale_ne_top i

end Cert.Bridge

end
-- ==== Proof.lean ====
/-
  The certificate of the cutoff-weighted neighbour sum.

  Per edge e: features x e (16 of them), a length r e, a receiver node. The weight of an edge is the cosine cutoff
  ½ · (cos (π̃ · r / 5) + 1) below the radius 5 and 0 from it on; node n receives the sum of weight × features over
  the edges it receives, divided by the average neighbour count 32.

  The kernel program multiplies each row by weight × 1/32 in a pipelined region over 250 blocks of 12 800 edges and
  then sums per receiver on the host; the reference sums weight × features per receiver and multiplies by 1/32 last.
  On the extended reals the two results are equal entry by entry, because a nonnegative finite factor distributes over
  any finite sum (Proof/CutoffLaw.lean); what each program's run leaves in its result buffer is read in
  Proof/KernelValue.lean and Proof/RefValue.lean, and Proof/Bridge.lean joins them. The equality needs nothing of the
  inputs, so the precondition is never opened. The ideal pass rewrote nothing, so `preserves` has no conjunct.
-/
import proofs.«109956_j82712480186400_1_alg».proof.Defs
import proofs.«109956_j82712480186400_1_alg».proof.Proof.Gen.Kernel
import proofs.«109956_j82712480186400_1_alg».proof.Proof.Gen.Kernel.Skeleton
import proofs.«109956_j82712480186400_1_alg».proof.Proof.Gen.Kernel.Launch
import proofs.«109956_j82712480186400_1_alg».proof.Proof.Gen.Kernel.Points
import proofs.«109956_j82712480186400_1_alg».proof.Proof.Gen.Kernel.Frame
import proofs.«109956_j82712480186400_1_alg».proof.Proof.Gen.KernelIdeal
import proofs.«109956_j82712480186400_1_alg».proof.Proof.Gen.KernelIdeal.Skeleton
import proofs.«109956_j82712480186400_1_alg».proof.Proof.Gen.KernelIdeal.Launch
import proofs.«109956_j82712480186400_1_alg».proof.Proof.Gen.KernelIdeal.Points
import proofs.«109956_j82712480186400_1_alg».proof.Proof.Gen.KernelIdeal.Frame
import proofs.«109956_j82712480186400_1_alg».proof.Proof.Gen.ReferenceIdeal
import proofs.«109956_j82712480186400_1_alg».proof.Proof.Gen.ReferenceIdeal.Run
import proofs.«109956_j82712480186400_1_alg».proof.Proof.Gen.Pre_finite_inputs
import proofs.«109956_j82712480186400_1_alg».proof.Proof.Bridge
import Idealize.ShloMosaic.Adequacy
import Idealize.ShloMosaic.Init

noncomputable section

namespace Cert.Proof

open Idealize.ShloMosaic Idealize.SL.Sem

/-- The word-level kernel program runs to the end and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result: the kernel program's
    `result`, which the reference's composed term equals at the agreeing arguments. -/
theorem algebraic : Cert.algebraic_KernelIdeal_ReferenceIdeal := by
  intro m ρ m' ρ' _ hagree
  refine ⟨fun c => Cert.KernelIdeal.RegionValue.result m c, Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.2]
  exact (Cert.Bridge.result_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
